-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x1x4096 : Shape := ⟨3, ![8, 1, 4096]⟩
abbrev S1x3x512 : Shape := ⟨3, ![1, 3, 512]⟩
abbrev S1x3x4096 : Shape := ⟨3, ![1, 3, 4096]⟩
abbrev S1x1x512 : Shape := ⟨3, ![1, 1, 512]⟩
abbrev S1x1x4096 : Shape := ⟨3, ![1, 1, 4096]⟩
abbrev S1x4096 : Shape := ⟨2, ![1, 4096]⟩
abbrev S3x512 : Shape := ⟨2, ![3, 512]⟩
abbrev S3x4096 : Shape := ⟨2, ![3, 4096]⟩
abbrev S512 : Shape := ⟨1, ![512]⟩
abbrev S1x512 : Shape := ⟨2, ![1, 512]⟩
abbrev S4096 : Shape := ⟨1, ![4096]⟩
abbrev S512x3 : Shape := ⟨2, ![512, 3]⟩
abbrev S512x4096 : Shape := ⟨2, ![512, 4096]⟩
abbrev S512x1 : Shape := ⟨2, ![512, 1]⟩
abbrev S8x4096 : Shape := ⟨2, ![8, 4096]⟩
abbrev S_ : Shape := ⟨0, ![]⟩

abbrev nBuf : Space → Nat
  | .hbm => 19
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x3x4096, .f32⟩
  | .hbm, ⟨4, _⟩ => ⟨S8x1x4096, .f32⟩
  | .hbm, ⟨5, _⟩ => ⟨S8x1x4096, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x3x512, .f32⟩
  | .local _ .vmem, ⟨1, _⟩ => ⟨S1x3x512, .f32⟩
  | .local _ .vmem, ⟨2, _⟩ => ⟨S1x3x4096, .f32⟩
  | .local _ .vmem, ⟨3, _⟩ => ⟨S1x3x4096, .f32⟩
  | .local _ .vmem, ⟨4, _⟩ => ⟨S1x1x512, .f32⟩
  | .local _ .vmem, ⟨5, _⟩ => ⟨S1x1x512, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_19 : BitVec 32 := 0#32
  let v41 : BitVec 1 := Scalar.cmpi .ne v40 c0_i32_19
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096x3_S8x3x4096_0_2_1 : S8x4096x3.Transposes [0, 2, 1] S8x3x4096
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S3x512_S512 : S3x512.Reduces [0] S512
  shapeCasts_S512_S1x512 : S512.ShapeCasts S1x512
  reduces_S3x4096_S4096 : S3x4096.Reduces [0] S4096
  shapeCasts_S4096_S1x4096 : S4096.ShapeCasts S1x4096
  transposes_S3x512_p1_0_S512x3 : S3x512.Transposes [1, 0] S512x3
  transposes_S1x512_p1_0_S512x1 : S1x512.Transposes [1, 0] S512x1
  broadcasts_S512x1_S512x4096 : S512x1.Broadcasts S512x4096
  broadcasts_S1x4096_S512x4096 : S1x4096.Broadcasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S512x4096_S4096 : S512x4096.Reduces [0] S4096
  reduces_S512x4096_S512 : S512x4096.Reduces [1] S512
  shapeCasts_S512_S512x1 : S512.ShapeCasts S512x1
  transposes_S512x1_p1_0_S1x512 : S512x1.Transposes [1, 0] S1x512
  shapeCasts_S1x512_S512 : S1x512.ShapeCasts S512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  shapeCasts_S1x4096_S4096 : S1x4096.ShapeCasts S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  shapeCasts_S8x1x4096_S8x4096 : S8x1x4096.ShapeCasts S8x4096
  reducesTo_S8x4096_S_d0_1 : S8x4096.ReducesTo [0, 1] S_
  h_S_ : 0 < S_.numel
  dot_S512x3_S3x4096_S512x4096_1_0_0_1_n_n_wf : DotDims.WF S512x3 S3x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512.size a ≤ S8x3x4096.size a
  hwx0_0 : ∀ i : grid0.Coords, EltTy.bits .f32 = 32 ∨ (Rect.block (s := S8x3x4096) S1x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S512x3_S3x4096_S512x4096_1_0_0_1_n_n : DotDims S512x3 S3x4096 S512x4096 where
  lhsContracting := [1]
  rhsContracting := [0]
  lhsNonContracting := [0]
  rhsNonContracting := [1]
  lhsBatch := []
  rhsBatch := []
  wf := dot_S512x3_S3x4096_S512x4096_1_0_0_1_n_n_wf

abbrev win0_0 : Pipeline.Window sig grid0 :=
  Pipeline.Window.ofSpec (Memref.whole main_v0) S1x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Pieces.lean ====
/-
  What one run of the kernel body leaves behind, as values.

  The body's stores each cover their buffer whole, so what a buffer holds afterwards is the last store's value, a function of
  the two input blocks and of what the running column minimum held on entry: the slab's nearest-neighbour distances in the
  first output, the updated running minimum in the scratch (from the reset value at a batch's first slab), and at a batch's
  last slab the second output computed from the minimum just updated.
-/
import proofs.«179954_j47493748359773_1_alg».proof.Proof.Gen.KernelIdeal.Frame
import Idealize.ShloMosaic.Lib.Pipeline.Value
import Idealize.ShloMosaic.Lib.Tactic

noncomputable section

namespace Cert.Chamfer.Pieces

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a slab that is not a batch's first, the running minimum is updated from what the slab before left. -/
theorem scratch_B (c : Dev nD) (i : grid0.Coords) (a2 : Memref sig .tc .vmem S1x3x512 .f32) (h2 : a2.IsWhole) (a3 : Memref sig .tc .vmem S1x3x4096 .f32) (h3 : a3.IsWhole) (a4 : Memref sig .tc .vmem S1x1x512 .f32) (h4 : a4.IsWhole) (a5 : Memref sig .tc .vmem S1x1x4096 .f32) (h5 : a5.IsWhole) (a6 : Memref sig .tc .vmem S1x4096 .f32) (h6 : a6.IsWhole) (hc0 : ¬cond0_0 i) (hc1 : ¬cond0_1 i)
    (x0 : Vec F S1x3x512 .f32) (x1 : Vec F S1x3x4096 .f32) (xs0 : Vec F S1x4096 .f32) :
    sout0_B_0 c i a2 h2 a3 h3 a4 h4 a5 h5 a6 h6 hc0 hc1 x0 x1 xs0 = k0_pay5 x0 x1 xs0 := by
  unfold sout0_B_0
  rw [View.read_writes_eq_canon _ _ _ (scover0_B_0 c i a2 h2 a3 h3 a4 h4 a5 h5 a6 h6 hc0 hc1 x0 x1 xs0)]
  unfold kernelRun0_B
  dsimp only
  sl_unfold_words
  rw [View.canon_unit_zero hz2]
  simp only [View.readAt_eq_ld, h2.read_unread, h3.read_unread, h6.read_unread, View.ld_unit_zero (S := S1x3x512) hz3, View.ld_unit_zero (S := S1x3x4096) hz3, View.ld_unit_zero (S := S1x4096) hz2, View.readCov_unit_zero (S := S1x4096) _ hz2]

/-- The same at a batch's last slab. -/
theorem scratch_C (c : Dev nD) (i : grid0.Coords) (a2 : Memref sig .tc .vmem S1x3x512 .f32) (h2 : a2.IsWhole) (a3 : Memref sig .tc .vmem S1x3x4096 .f32) (h3 : a3.IsWhole) (a4 : Memref sig .tc .vmem S1x1x512 .f32) (h4 : a4.IsWhole) (a5 : Memref sig .tc .vmem S1x1x4096 .f32) (h5 : a5.IsWhole) (a6 : Memref sig .tc .vmem S1x4096 .f32) (h6 : a6.IsWhole) (hc0 : ¬cond0_0 i) (hc1 : cond0_1 i)
    (x0 : Vec F S1x3x512 .f32) (x1 : Vec F S1x3x4096 .f32) (xs0 : Vec F S1x4096 .f32) :
    sout0_C_0 c i a2 h2 a3 h3 a4 h4 a5 h5 a6 h6 hc0 hc1 x0 x1 xs0 = k0_pay5 x0 x1 xs0 := by
  unfold sout0_C_0
  rw [View.read_writes_eq_canon _ _ _ (scover0_C_0 c i a2 h2 a3 h3 a4 h4 a5 h5 a6 h6 hc0 hc1 x0 x1 xs0)]
  unfold kernelRun0_C
  dsimp only
  sl_unfold_words
  rw [View.canon_unit_zero hz2]
  simp only [View.readAt_eq_ld, h2.read_unread, h3.read_unread, h6.read_unread, View.ld_unit_zero (S := S1x3x512) hz3, View.ld_unit_zero (S := S1x3x4096) hz3, View.ld_unit_zero (S := S1x4096) hz2, View.readCov_unit_zero (S := S1x4096) _ hz2]

/-- At a batch's first slab the running minimum is first reset, and updated from the reset value. -/
theorem scratch_A (c : Dev nD) (i : grid0.Coords) (a2 : Memref sig .tc .vmem S1x3x512 .f32) (h2 : a2.IsWhole) (a3 : Memref sig .tc .vmem S1x3x4096 .f32) (h3 : a3.IsWhole) (a4 : Memref sig .tc .vmem S1x1x512 .f32) (h4 : a4.IsWhole) (a5 : Memref sig .tc .vmem S1x1x4096 .f32) (h5 : a5.IsWhole) (a6 : Memref sig .tc .vmem S1x4096 .f32) (h6 : a6.IsWhole) (hc0 : cond0_0 i) (hc1 : ¬cond0_1 i)
    (x0 : Vec F S1x3x512 .f32) (x1 : Vec F S1x3x4096 .f32) :
    sout0_A_0 c i a2 h2 a3 h3 a4 h4 a5 h5 a6 h6 hc0 hc1 x0 x1 = k0_pay5 x0 x1 (k0_pay4 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S1x4096) hz2]
  simp only [View.readAt_eq_ld, h2.read_unread, h3.read_unread, h6.read_unread, View.ld_unit_zero (S := S1x3x512) hz3, View.ld_unit_zero (S := S1x3x4096) hz3, View.ld_unit_zero (S := S1x4096) hz2, View.readCov_unit_zero (S := S1x4096) _ hz2]

/-- At a batch's last slab the second output is computed from the running minimum just updated. -/
theorem out3_C (c : Dev nD) (i : grid0.Coords) (a2 : Memref sig .tc .vmem S1x3x512 .f32) (h2 : a2.IsWhole) (a3 : Memref sig .tc .vmem S1x3x4096 .f32) (h3 : a3.IsWhole) (a4 : Memref sig .tc .vmem S1x1x512 .f32) (h4 : a4.IsWhole) (a5 : Memref sig .tc .vmem S1x1x4096 .f32) (h5 : a5.IsWhole) (a6 : Memref sig .tc .vmem S1x4096 .f32) (h6 : a6.IsWhole) (hc0 : ¬cond0_0 i) (hc1 : cond0_1 i)
    (x0 : Vec F S1x3x512 .f32) (x1 : Vec F S1x3x4096 .f32) (xs0 : Vec F S1x4096 .f32) :
    out0_C_3 c i a2 h2 a3 h3 a4 h4 a5 h5 a6 h6 hc0 hc1 x0 x1 xs0 = k0_pay2 (k0_pay5 x0 x1 xs0) := by
  unfold out0_C_3
  rw [View.read_writes_eq_canon _ _ _ (cover0_C_3 c i a2 h2 a3 h3 a4 h4 a5 h5 a6 h6 hc0 hc1 x0 x1 xs0)]
  unfold kernelRun0_C
  dsimp only
  sl_unfold_words
  rw [View.canon_unit_zero hz3]
  simp only [View.readAt_eq_ld, h2.read_unread, h3.read_unread, h6.read_unread, View.ld_unit_zero (S := S1x3x512) hz3, View.ld_unit_zero (S := S1x3x4096) hz3, View.ld_unit_zero (S := S1x4096) hz2, View.readCov_unit_zero (S := S1x4096) _ hz2]

/-- The first output: the slab's nearest-neighbour distances, at every slab. -/
theorem out2_A (c : Dev nD) (i : grid0.Coords) (a2 : Memref sig .tc .vmem S1x3x512 .f32) (h2 : a2.IsWhole) (a3 : Memref sig .tc .vmem S1x3x4096 .f32) (h3 : a3.IsWhole) (a4 : Memref sig .tc .vmem S1x1x512 .f32) (h4 : a4.IsWhole) (a5 : Memref sig .tc .vmem S1x1x4096 .f32) (h5 : a5.IsWhole) (a6 : Memref sig .tc .vmem S1x4096 .f32) (h6 : a6.IsWhole) (hc0 : cond0_0 i) (hc1 : ¬cond0_1 i)
    (x0 : Vec F S1x3x512 .f32) (x1 : Vec F S1x3x4096 .f32) :
    out0_A_2 c i a2 h2 a3 h3 a4 h4 a5 h5 a6 h6 hc0 hc1 x0 x1 = k0_pay1 (k0_pay6 x0 x1) := by
  unfold out0_A_2
  rw [View.read_writes_eq_canon _ _ _ (cover0_A_2 c i a2 h2 a3 h3 a4 h4 a5 h5 a6 h6 hc0 hc1 x0 x1)]
  unfold kernelRun0_A
  dsimp only
  sl_unfold_words
  rw [View.canon_unit_zero hz3]
  simp only [View.readAt_eq_ld, h2.read_unread, h3.read_unread, h6.read_unread, View.ld_unit_zero (S := S1x3x512) hz3, View.ld_unit_zero (S := S1x3x4096) hz3, View.ld_unit_zero (S := S1x4096) hz2, View.readCov_unit_zero (S := S1x4096) _ hz2]

theorem out2_B (c : Dev nD) (i : grid0.Coords) (a2 : Memref sig .tc .vmem S1x3x512 .f32) (h2 : a2.IsWhole) (a3 : Memref sig .tc .vmem S1x3x4096 .f32) (h3 : a3.IsWhole) (a4 : Memref sig .tc .vmem S1x1x512 .f32) (h4 : a4.IsWhole) (a5 : Memref sig .tc .vmem S1x1x4096 .f32) (h5 : a5.IsWhole) (a6 : Memref sig .tc .vmem S1x4096 .f32) (h6 : a6.IsWhole) (hc0 : ¬cond0_0 i) (hc1 : ¬cond0_1 i)
    (x0 : Vec F S1x3x512 .f32) (x1 : Vec F S1x3x4096 .f32) (xs0 : Vec F S1x4096 .f32) :
    out0_B_2 c i a2 h2 a3 h3 a4 h4 a5 h5 a6 h6 hc0 hc1 x0 x1 xs0 = k0_pay1 (k0_pay6 x0 x1) := by
  unfold out0_B_2
  rw [View.read_writes_eq_canon _ _ _ (cover0_B_2 c i a2 h2 a3 h3 a4 h4 a5 h5 a6 h6 hc0 hc1 x0 x1 xs0)]
  unfold kernelRun0_B
  dsimp only
  sl_unfold_words
  rw [View.canon_unit_zero hz3]
  simp only [View.readAt_eq_ld, h2.read_unread, h3.read_unread, h6.read_unread, View.ld_unit_zero (S := S1x3x512) hz3, View.ld_unit_zero (S := S1x3x4096) hz3, View.ld_unit_zero (S := S1x4096) hz2, View.readCov_unit_zero (S := S1x4096) _ hz2]

theorem out2_C (c : Dev nD) (i : grid0.Coords) (a2 : Memref sig .tc .vmem S1x3x512 .f32) (h2 : a2.IsWhole) (a3 : Memref sig .tc .vmem S1x3x4096 .f32) (h3 : a3.IsWhole) (a4 : Memref sig .tc .vmem S1x1x512 .f32) (h4 : a4.IsWhole) (a5 : Memref sig .tc .vmem S1x1x4096 .f32) (h5 : a5.IsWhole) (a6 : Memref sig .tc .vmem S1x4096 .f32) (h6 : a6.IsWhole) (hc0 : ¬cond0_0 i) (hc1 : cond0_1 i)
    (x0 : Vec F S1x3x512 .f32) (x1 : Vec F S1x3x4096 .f32) (xs0 : Vec F S1x4096 .f32) :
    out0_C_2 c i a2 h2 a3 h3 a4 h4 a5 h5 a6 h6 hc0 hc1 x0 x1 xs0 = k0_pay1 (k0_pay6 x0 x1) := by
  unfold out0_C_2
  rw [View.read_writes_eq_canon _ _ _ (cover0_C_2 c i a2 h2 a3 h3 a4 h4 a5 h5 a6 h6 hc0 hc1 x0 x1 xs0)]
  unfold kernelRun0_C
  dsimp only
  sl_unfold_words
  rw [View.canon_unit_zero hz3]
  simp only [View.readAt_eq_ld, h2.read_unread, h3.read_unread, h6.read_unread, View.ld_unit_zero (S := S1x3x512) hz3, View.ld_unit_zero (S := S1x3x4096) hz3, View.ld_unit_zero (S := S1x4096) hz2, View.readCov_unit_zero (S := S1x4096) _ hz2]

end Cert.Chamfer.Pieces

end
-- ==== Proof.Spec.lean ====
/-
  The mathematics both programs compute, over the extended reals.

  Two batches of eight point clouds, 4096 points of three coordinates each.  For a batch b, a point n of the first cloud and
  a point m of the second, the squared distance is taken in its expanded form
      |x_n|^2 + |y_m|^2 - 2 <x_n, y_m>,
  the three-term sums over the coordinate.  The distance is the square root of the squared distance clamped below at zero;
  each point's nearest-neighbour distance is the minimum of those distances over the other cloud, a fold of `min` from the
  top element.  The result is the mean of the first cloud's nearest-neighbour distances plus the mean of the second's,
  divided by the number of points.

  Clamping and the square root are both monotone and fix the top element, so they may be taken after the minimum instead
  of before it (`root_fold_min`); and a minimum over all 4096 points may be taken slab by slab, 512 points at a time
  (`slabMin_step`).  Those two facts are all the algebra the comparison needs.
-/
import Idealize.ShloMosaic.PureOps
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A batch of eight clouds of 4096 points in three coordinates. -/
abbrev Cloud : Type := (⟨3, ![8, 4096, 3]⟩ : Shape).Idx → EReal

/-- The factor two of the cross term, as both programs spell it. -/
def two : EReal := Ideal.ofBits .f32 0x40000000#32
/-- The clamp's floor, as both programs spell it (it is the real zero: `floor_eq`). -/
def floor0 : EReal := Ideal.ofBits .f32 0x00000000#32
/-- The minimum's starting value, as both programs spell it (it is the top element: `start_eq`). -/
def start : EReal := Ideal.ofBits .f32 0x7F800000#32

theorem floor_eq : floor0 = 0 := Ideal.ofBits_zero_f32
theorem start_eq : start = ⊤ := by simp [start, Ideal.ofBits, Ideal.ieee]

/-- The squared length of point `n` of cloud `b`. -/
def normSq (x : Cloud) (b : Fin 8) (n : Fin 4096) : EReal := ∑ d : Fin 3, x (ix3 b n d) * x (ix3 b n d)
/-- The inner product of point `n` of `x`'s cloud `b` with point `m` of `y`'s. -/
def inner (x y : Cloud) (b : Fin 8) (n m : Fin 4096) : EReal := ∑ d : Fin 3, x (ix3 b n d) * y (ix3 b m d)
/-- The squared distance in expanded form. -/
def sqDist (x y : Cloud) (b : Fin 8) (n m : Fin 4096) : EReal := (normSq x b n + normSq y b m) - two * inner x y b n m
/-- Clamp below at zero, then the square root. -/
def root (v : EReal) : EReal := Ideal.sqrt (max v floor0)

/-- For each point of the first cloud, the distance to the nearest point of the second. -/
def rowNearest (x y : Cloud) : (⟨2, ![8, 4096]⟩ : Shape).Idx → EReal :=
  fun j => (Finset.univ : Finset (Fin 4096)).fold min start fun m => root (sqDist x y (j 0) (j 1) m)
/-- For each point of the second cloud, the distance to the nearest point of the first. -/
def colNearest (x y : Cloud) : (⟨2, ![8, 4096]⟩ : Shape).Idx → EReal :=
  fun j => (Finset.univ : Finset (Fin 4096)).fold min start fun n => root (sqDist x y (j 0) n (j 1))

/-! ## The square root after the minimum -/

/-- On the nonnegative extended reals the square root is monotone. -/
theorem sqrt_le_sqrt_of_nonneg {a b : EReal} (ha : 0 ≤ a) (hab : a ≤ b) : Ideal.sqrt a ≤ Ideal.sqrt b := by
  induction b using EReal.rec with
  | bot => exact absurd (le_trans ha hab) (by simp)
  | top => rw [Ideal.sqrt_top]; exact le_top
  | coe b =>
    induction a using EReal.rec with
    | bot => exact absurd ha (by simp)
    | top => exact absurd hab (by simp)
    | coe a =>
      have ha' : 0 ≤ a := by exact_mod_cast ha
      have hab' : a ≤ b := by exact_mod_cast hab
      rw [Ideal.sqrt_coe, Ideal.sqrt_coe, if_neg (not_lt.2 ha'), if_neg (not_lt.2 (ha'.trans hab'))]
      exact_mod_cast Real.sqrt_le_sqrt hab'

/-- Clamping then taking the root is monotone, -/
theorem root_mono : Monotone root := fun a b h => by
  unfold root
  rw [floor_eq]
  exact sqrt_le_sqrt_of_nonneg (le_max_right _ _) (max_le_max h le_rfl)

/-- and fixes the top element, -/
theorem root_top : root ⊤ = ⊤ := by
  unfold root
  rw [max_eq_left le_top, Ideal.sqrt_top]

/-- so it may be taken after a minimum instead of before it. -/
theorem root_fold_min {ι : Type} (s : Finset ι) (g : ι → EReal) :
    root (s.fold min ⊤ g) = s.fold min ⊤ fun i => root (g i) := by
  classical
  induction s using Finset.induction_on with
  | empty => simp only [Finset.fold_empty]; exact root_top
  | insert a s ha ih => rw [Finset.fold_insert ha, Finset.fold_insert ha, root_mono.map_min, ih]

/-! ## A minimum over all points, slab by slab -/

/-- The minimum of `g` over the points before `k`. -/
def minBelow (g : Fin 4096 → EReal) (k : ℕ) : EReal := (Finset.univ.filter fun n : Fin 4096 => n.val < k).fold min ⊤ g

theorem le_minBelow (g : Fin 4096 → EReal) (k : ℕ) (c : EReal) : c ≤ minBelow g k ↔ ∀ n : Fin 4096, n.val < k → c ≤ g n := by
  unfold minBelow
  rw [Finset.le_fold_min]
  simp only [le_top, true_and, Finset.mem_filter, Finset.mem_univ]

theorem minBelow_zero (g : Fin 4096 → EReal) : minBelow g 0 = ⊤ := by
  unfold minBelow
  rw [Finset.filter_false_of_mem (fun n _ => Nat.not_lt_zero _), Finset.fold_empty]

theorem minBelow_all (g : Fin 4096 → EReal) : minBelow g 4096 = (Finset.univ : Finset (Fin 4096)).fold min ⊤ g := by
  unfold minBelow
  rw [Finset.filter_true_of_mem (fun n _ => n.isLt)]

/-- Point `p` of slab `j` (512 points a slab, eight slabs). -/
def slabPt (j : ℕ) (hj : j < 8) (p : Fin 512) : Fin 4096 := ⟨512 * j + p.val, by have := p.isLt; omega⟩

/-- The minimum before slab `j + 1` is the minimum before slab `j` and slab `j`'s own. -/
theorem slabMin_step (g : Fin 4096 → EReal) (j : ℕ) (hj : j < 8) :
    min (minBelow g (512 * j)) ((Finset.univ : Finset (Fin 512)).fold min ⊤ fun p => g (slabPt j hj p)) = minBelow g (512 * (j + 1)) := by
  refine eq_of_forall_le_iff fun c => ?_
  rw [le_min_iff, le_minBelow, le_minBelow, Finset.le_fold_min]
  simp only [le_top, true_and, Finset.mem_univ, forall_true_left]
  constructor
  · rintro ⟨h1, h2⟩ n hn
    by_cases h : n.val < 512 * j
    · exact h1 n h
    · have : n = slabPt j hj ⟨n.val - 512 * j, by omega⟩ := Fin.ext (by simp only [slabPt]; omega)
      rw [this]; exact h2 _
  · intro h
    exact ⟨fun n hn => h n (by omega), fun p => h _ (by have := p.isLt; simp only [slabPt]; omega)⟩

/-! ## The two means -/

variable (hred : (⟨2, ![8, 4096]⟩ : Shape).ReducesTo [0, 1] ⟨0, ![]⟩) (hpos : 0 < (⟨0, ![]⟩ : Shape).numel)

/-- The mean of the first array plus the mean of the second, over the number of points: the operations both programs end with. -/
def meanOfMeans (r c : FVec Ideal ⟨2, ![8, 4096]⟩ .f32) : FVec Ideal ⟨0, ![]⟩ .f32 :=
  Host.divf (F := Ideal)
    (addf (F := Ideal)
      (Host.divf (F := Ideal) (Host.reduceAdd (F := Ideal) r (constant (F := Ideal) ⟨0, ![]⟩ .f32 0x00000000#32) hred hpos) (constant (F := Ideal) ⟨0, ![]⟩ .f32 0x47000000#32))
      (Host.divf (F := Ideal) (Host.reduceAdd (F := Ideal) c (constant (F := Ideal) ⟨0, ![]⟩ .f32 0x00000000#32) hred hpos) (constant (F := Ideal) ⟨0, ![]⟩ .f32 0x47000000#32)))
    (constant (F := Ideal) ⟨0, ![]⟩ .f32 0x45800000#32)

end Cert.Chamfer

end
-- ==== Proof.Blocks.lean ====
/-
  The kernel's input blocks, read off the argument arrays.

  The host transposes each cloud to coordinate-major form, [8, 3, 4096], before the launch.  Grid point t is batch t / 8,
  slab t % 8: the first input's block there is the batch's three coordinate rows restricted to the slab's 512 points, the
  second input's block the batch's three whole rows.  So a block entry is an entry of the original cloud: coordinate d of
  point 512 (t % 8) + p, resp. of point q, of batch t / 8.
-/
import proofs.«179954_j47493748359773_1_alg».proof.Proof.Gen.KernelIdeal.Frame
import proofs.«179954_j47493748359773_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.Chamfer.Blocks

open Idealize.ShloMosaic Idealize.ShloMosaic.TcCoe Idealize.SL.Sem Idealize.ShloMosaic.ValueIdx
open Cert.KernelIdeal Cert.KernelIdeal.Gen Cert.Chamfer

variable {F : FTy → Type} [FloatOps F]
variable (m : (ℓ : Loc nD τ sig) → Buf (Elt F) ℓ)

/-- The grid has 64 points: eight batches of eight slabs. -/
theorem N64 : cfg0.N = 64 := N_0

/-- The batch of grid point `t`. -/
def batch (t : Fin cfg0.N) : Fin 8 := ⟨t.val / 8, by have := lt_of_lt_of_eq t.isLt N64; omega⟩
/-- The slab of grid point `t`. -/
def slab (t : Fin cfg0.N) : ℕ := t.val % 8
theorem slab_lt (t : Fin cfg0.N) : slab t < 8 := Nat.mod_lt _ (by decide)
/-- Point `p` of grid point `t`'s slab, as a point of the cloud. -/
def pt (t : Fin cfg0.N) (p : Fin 512) : Fin 4096 := slabPt (slab t) (slab_lt t) p

/-- The printed index maps, decided over the grid. -/
theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = 0 :=
  (by decide +kernel : ∀ t : Fin grid0.N, _)

/-- The first cloud as the region finds it: transposed to coordinate-major form. -/
theorem V_v0 (c : Dev nD) : (V m c main_v0 : S8x3x4096.Idx → Elt F .f32)
    = transpose S8x3x4096 [0, 2, 1] (m ((c : Thread nD τ).loc main_arg0)) Facts₀.transposes_S8x4096x3_S8x3x4096_0_2_1 := by
  show StableHlo.after hostOps0 (fun b => m (c, b)) (Proc.devRef .tc main_v0) = _
  after_results

/-- The second cloud likewise. -/
theorem V_v1 (c : Dev nD) : (V m c main_v1 : S8x3x4096.Idx → Elt F .f32)
    = transpose S8x3x4096 [0, 2, 1] (m ((c : Thread nD τ).loc main_arg1)) Facts₀.transposes_S8x4096x3_S8x3x4096_0_2_1 := by
  show StableHlo.after hostOps0 (fun b => m (c, b)) (Proc.devRef .tc main_v1) = _
  after_results

/-- The first input's block at `t`: coordinate `d` of the slab's point `p`. -/
theorem blk0_apply (c : Dev nD) (t : Fin cfg0.N) (d : Fin 3) (p : Fin 512) :
    (iblk m c 0 t : Vec F S1x3x512 .f32) (ix3 (0 : Fin 1) d p) = m ((c : Thread nD τ).loc main_arg0) (ix3 (batch t) (pt t p) d) := by
  obtain ⟨e0, e1, e2, -⟩ := idx_facts t
  unfold iblk
  rw [View.read_apply]
  show V m c main_v0 (((cfg0.win 0).blk t).view.emb (ix3 (0 : Fin 1) d p)) = _
  have he : ((cfg0.win 0).blk t).view.emb (ix3 (0 : Fin 1) d p) = ix3 (batch t) d (pt t p) := by
    funext a; apply Fin.ext
    match a with
    | ⟨0, _⟩ => show win0_0.index t (0 : Fin 3) * 1 + 1 * 0 = t.val / 8; omega
    | ⟨1, _⟩ => show win0_0.index t (1 : Fin 3) * 3 + 1 * d.val = d.val; omega
    | ⟨2, _⟩ => show win0_0.index t (2 : Fin 3) * 512 + 1 * p.val = 512 * (t.val % 8) + p.val; omega
  rw [he, V_v0]
  exact transpose_ix3_021_apply _ _ _ _ _

/-- The second input's block at `t`: coordinate `d` of the cloud's point `q`. -/
theorem blk1_apply (c : Dev nD) (t : Fin cfg0.N) (d : Fin 3) (q : Fin 4096) :
    (iblk m c 1 t : Vec F S1x3x4096 .f32) (ix3 (0 : Fin 1) d q) = m ((c : Thread nD τ).loc main_arg1) (ix3 (batch t) q d) := by
  obtain ⟨-, -, -, e0, e1, e2, -⟩ := idx_facts t
  unfold iblk
  rw [View.read_apply]
  show V m c main_v1 (((cfg0.win 1).blk t).view.emb (ix3 (0 : Fin 1) d q)) = _
  have he : ((cfg0.win 1).blk t).view.emb (ix3 (0 : Fin 1) d q) = ix3 (batch t) d q := by
    funext a; apply Fin.ext
    match a with
    | ⟨0, _⟩ => show win0_1.index t (0 : Fin 3) * 1 + 1 * 0 = t.val / 8; omega
    | ⟨1, _⟩ => show win0_1.index t (1 : Fin 3) * 3 + 1 * d.val = d.val; omega
    | ⟨2, _⟩ => show win0_1.index t (2 : Fin 3) * 4096 + 1 * q.val = q.val; omega
  rw [he, V_v1]
  exact transpose_ix3_021_apply _ _ _ _ _

end Cert.Chamfer.Blocks

end
-- ==== Proof.Payload.lean ====
/-
  The kernel body's arithmetic, read at an index over the extended reals.

  The body holds one 512-point slab of the first cloud (three rows of 512, a coordinate a row) and one whole second cloud
  (three rows of 4096).  From them it forms the 512 x 4096 table of squared distances in expanded form, takes the table's
  column minima into the running column minimum it carries, and its row minima through the clamp and the square root into
  the slab's nearest-neighbour distances.
-/
import proofs.«179954_j47493748359773_1_alg».proof.Proof.Gen.KernelIdeal.Skeleton
import proofs.«179954_j47493748359773_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Chamfer.Body

open Idealize.ShloMosaic Idealize.ShloMosaic.ValueIdx Cert.KernelIdeal Cert.KernelIdeal.Gen Cert.Chamfer

/-- The squared length of the slab's point `p`: the sum over the three coordinate rows. -/
def slabNormSq (x0 : Vec Ideal S1x3x512 .f32) (p : Fin 512) : EReal :=
  ∑ d : Fin 3, x0 (ix3 (0 : Fin 1) d p) * x0 (ix3 (0 : Fin 1) d p)
/-- The squared length of the second cloud's point `q`. -/
def cloudNormSq (x1 : Vec Ideal S1x3x4096 .f32) (q : Fin 4096) : EReal :=
  ∑ d : Fin 3, x1 (ix3 (0 : Fin 1) d q) * x1 (ix3 (0 : Fin 1) d q)
/-- The inner product of the slab's point `p` with the second cloud's point `q`. -/
def slabInner (x0 : Vec Ideal S1x3x512 .f32) (x1 : Vec Ideal S1x3x4096 .f32) (p : Fin 512) (q : Fin 4096) : EReal :=
  ∑ d : Fin 3, x0 (ix3 (0 : Fin 1) d p) * x1 (ix3 (0 : Fin 1) d q)

/-- Row `d` of the slab at `p`: the cast that drops the block's unit axis keeps the row-major position. -/
theorem slabRow_apply (x0 : Vec Ideal S1x3x512 .f32) (d : Fin 3) (p : Fin 512) :
    shapeCast S3x512 x0 shapeCasts_S1x3x512_S3x512 (ix2 d p) = x0 (ix3 (0 : Fin 1) d p) :=
  shapeCast_apply x0 _ _ _ (by
    rw [Shape.rowMajor_val_three, Shape.rowMajor_val_two]
    show ((0 : Fin 1).val * 3 + d.val) * 512 + p.val = d.val * 512 + p.val
    simp)

/-- Row `d` of the second cloud at `q`, likewise. -/
theorem cloudRow_apply (x1 : Vec Ideal S1x3x4096 .f32) (d : Fin 3) (q : Fin 4096) :
    shapeCast S3x4096 x1 shapeCasts_S1x3x4096_S3x4096 (ix2 d q) = x1 (ix3 (0 : Fin 1) d q) :=
  shapeCast_apply x1 _ _ _ (by
    rw [Shape.rowMajor_val_three, Shape.rowMajor_val_two]
    show ((0 : Fin 1).val * 3 + d.val) * 4096 + q.val = d.val * 4096 + q.val
    simp)

/-- The sum of the slab's squared rows at `p` is the squared length of point `p`. -/
theorem slabNorm_apply (x0 : Vec Ideal S1x3x512 .f32) (p : Fin 512) :
    multiReduction (F := Ideal) .add [0] S512
        (mulf (shapeCast S3x512 x0 shapeCasts_S1x3x512_S3x512) (shapeCast S3x512 x0 shapeCasts_S1x3x512_S3x512))
        0x00000000#32 reduces_S3x512_S512 (.inl rfl) rfl (ix1 p) = slabNormSq x0 p := by
  refine (Ideal.multiReduction_add_single _ _ reduces_S3x512_S512 _ _ (ix1 p)).trans ?_
  unfold slabNormSq
  refine Finset.sum_congr rfl fun d _ => ?_
  have e : reduces_S3x512_S512.lift (ix1 p) d = ix2 d p := funext fun a => Fin.ext (by
    match a with
    | ⟨0, _⟩ => rfl
    | ⟨1, _⟩ => rfl)
  refine (congrArg _ e).trans ?_
  exact congrArg₂ (· * ·) (slabRow_apply x0 d p) (slabRow_apply x0 d p)

/-- The sum of the second cloud's squared rows at `q` is the squared length of point `q`. -/
theorem cloudNorm_apply (x1 : Vec Ideal S1x3x4096 .f32) (q : Fin 4096) :
    multiReduction (F := Ideal) .add [0] S4096
        (mulf (shapeCast S3x4096 x1 shapeCasts_S1x3x4096_S3x4096) (shapeCast S3x4096 x1 shapeCasts_S1x3x4096_S3x4096))
        0x00000000#32 reduces_S3x4096_S4096 (.inl rfl) rfl (ix1 q) = cloudNormSq x1 q := by
  refine (Ideal.multiReduction_add_single _ _ reduces_S3x4096_S4096 _ _ (ix1 q)).trans ?_
  unfold cloudNormSq
  refine Finset.sum_congr rfl fun d _ => ?_
  have e : reduces_S3x4096_S4096.lift (ix1 q) d = ix2 d q := funext fun a => Fin.ext (by
    match a with
    | ⟨0, _⟩ => rfl
    | ⟨1, _⟩ => rfl)
  refine (congrArg _ e).trans ?_
  exact congrArg₂ (· * ·) (cloudRow_apply x1 d q) (cloudRow_apply x1 d q)

/-! The product's operand indices, axis by axis: the left operand is read at (row, contraction), the right one at
    (contraction, column). -/

theorem lhs_dot_0 (j : S512x4096.Idx) (k : dot_S512x3_S3x4096_S512x4096_1_0_0_1_n_n.contr.Idx) :
    (dot_S512x3_S3x4096_S512x4096_1_0_0_1_n_n.lhsIdx j k 0).val = (j 0).val := by
  unfold DotDims.lhsIdx
  rw [dif_neg (show ¬(0 : Fin S512x3.rank) ∈ dot_S512x3_S3x4096_S512x4096_1_0_0_1_n_n.lhsBatch by decide),
    dif_pos (show (0 : Fin S512x3.rank) ∈ dot_S512x3_S3x4096_S512x4096_1_0_0_1_n_n.lhsNonContracting by decide)]
  rfl
theorem lhs_dot_1 (j : S512x4096.Idx) (k : dot_S512x3_S3x4096_S512x4096_1_0_0_1_n_n.contr.Idx) :
    (dot_S512x3_S3x4096_S512x4096_1_0_0_1_n_n.lhsIdx j k 1).val = (k ⟨0, by decide⟩).val :=
  dot_S512x3_S3x4096_S512x4096_1_0_0_1_n_n.lhsIdx_val_of_single rfl j k
theorem rhs_dot_0 (j : S512x4096.Idx) (k : dot_S512x3_S3x4096_S512x4096_1_0_0_1_n_n.contr.Idx) :
    (dot_S512x3_S3x4096_S512x4096_1_0_0_1_n_n.rhsIdx j k 0).val = (k ⟨0, by decide⟩).val :=
  dot_S512x3_S3x4096_S512x4096_1_0_0_1_n_n.rhsIdx_val_of_single rfl j k
theorem rhs_dot_1 (j : S512x4096.Idx) (k : dot_S512x3_S3x4096_S512x4096_1_0_0_1_n_n.contr.Idx) :
    (dot_S512x3_S3x4096_S512x4096_1_0_0_1_n_n.rhsIdx j k 1).val = (j 1).val := by
  unfold DotDims.rhsIdx
  rw [dif_neg (show ¬(1 : Fin S3x4096.rank) ∈ dot_S512x3_S3x4096_S512x4096_1_0_0_1_n_n.rhsBatch by decide),
    dif_pos (show (1 : Fin S3x4096.rank) ∈ dot_S512x3_S3x4096_S512x4096_1_0_0_1_n_n.rhsNonContracting by decide)]
  rfl

/-- The product of the transposed slab with the second cloud, into a zero accumulator, at (p, q): the inner product of
    point `p` with point `q`. -/
theorem inner_apply (x0 : Vec Ideal S1x3x512 .f32) (x1 : Vec Ideal S1x3x4096 .f32) (p : Fin 512) (q : Fin 4096) :
    matmul (F := Ideal) (φ₁ := .f32) (φ₂ := .f32) dot_S512x3_S3x4096_S512x4096_1_0_0_1_n_n none
        (transpose S512x3 [1, 0] (shapeCast S3x512 x0 shapeCasts_S1x3x512_S3x512) transposes_S3x512_p1_0_S512x3)
        (shapeCast S3x4096 x1 shapeCasts_S1x3x4096_S3x4096) (constant S512x4096 .f32 0x00000000#32) (ix2 p q)
      = slabInner x0 x1 p q := by
  refine (Ideal.matmul_constant_zero_apply dot_S512x3_S3x4096_S512x4096_1_0_0_1_n_n none _ _ (ix2 p q)).trans ?_
  rw [← Equiv.sum_comp (contrEquiv1 dot_S512x3_S3x4096_S512x4096_1_0_0_1_n_n 3 rfl rfl).symm]
  unfold slabInner
  refine Finset.sum_congr rfl fun d _ => ?_
  have hk := contrEquiv1_symm_val dot_S512x3_S3x4096_S512x4096_1_0_0_1_n_n 3 rfl rfl d
  have el : dot_S512x3_S3x4096_S512x4096_1_0_0_1_n_n.lhsIdx (ix2 p q)
      ((contrEquiv1 dot_S512x3_S3x4096_S512x4096_1_0_0_1_n_n 3 rfl rfl).symm d) = ix2 p d := funext fun a => Fin.ext (by
    match a with
    | ⟨0, _⟩ => exact lhs_dot_0 _ _
    | ⟨1, _⟩ => exact (lhs_dot_1 _ _).trans hk)
  have er : dot_S512x3_S3x4096_S512x4096_1_0_0_1_n_n.rhsIdx (ix2 p q)
      ((contrEquiv1 dot_S512x3_S3x4096_S512x4096_1_0_0_1_n_n 3 rfl rfl).symm d) = ix2 d q := funext fun a => Fin.ext (by
    match a with
    | ⟨0, _⟩ => exact (rhs_dot_0 _ _).trans hk
    | ⟨1, _⟩ => exact rhs_dot_1 _ _)
  rw [el, er]
  refine congrArg₂ (· * ·) ?_ (cloudRow_apply x1 d q)
  refine (transpose_apply _ _ transposes_S3x512_p1_0_S512x3 (ix2 p d) (ix2 d p) fun b => ?_).trans (slabRow_apply x0 d p)
  match b with
  | ⟨0, _⟩ => rfl
  | ⟨1, _⟩ => rfl

/-- The table of squared distances at (p, q). -/
theorem sqTable_apply (x0 : Vec Ideal S1x3x512 .f32) (x1 : Vec Ideal S1x3x4096 .f32) (p : Fin 512) (q : Fin 4096) :
    k0_pay3 (F := Ideal) x0 x1 (ix2 p q) = (slabNormSq x0 p + cloudNormSq x1 q) - two * slabInner x0 x1 p q := by
  unfold k0_pay3
  refine (subf_apply _ _ (ix2 p q)).trans ?_
  refine congrArg₂ (· - ·) ?_ ?_
  · refine (addf_apply _ _ (ix2 p q)).trans ?_
    refine congrArg₂ (· + ·) ?_ ?_
    · -- the slab's squared lengths, laid down the rows of the table
      refine (broadcastTo_apply _ broadcasts_S512x1_S512x4096 (ix2 p q) (ix2 p (0 : Fin 1)) fun a => ?_).trans ?_
      · match a with
        | ⟨0, _⟩ => show p.val = if (512 : ℕ) = 1 then 0 else p.val; rw [if_neg (by decide)]
        | ⟨1, _⟩ => show 0 = if (1 : ℕ) = 1 then 0 else q.val; rw [if_pos rfl]
      refine (transpose_apply _ _ transposes_S1x512_p1_0_S512x1 (ix2 p (0 : Fin 1)) (ix2 (0 : Fin 1) p) fun b => ?_).trans ?_
      · match b with
        | ⟨0, _⟩ => rfl
        | ⟨1, _⟩ => rfl
      refine (shapeCast_apply _ shapeCasts_S512_S1x512 (ix2 (0 : Fin 1) p) (ix1 p) ?_).trans (slabNorm_apply x0 p)
      rw [Shape.rowMajor_val_one, Shape.rowMajor_val_two]
      show p.val = (0 : Fin 1).val * 512 + p.val
      simp
    · -- the second cloud's squared lengths, laid along the columns
      refine (broadcastTo_apply _ broadcasts_S1x4096_S512x4096 (ix2 p q) (ix2 (0 : Fin 1) q) fun a => ?_).trans ?_
      · match a with
        | ⟨0, _⟩ => show 0 = if (1 : ℕ) = 1 then 0 else p.val; rw [if_pos rfl]
        | ⟨1, _⟩ => show q.val = if (4096 : ℕ) = 1 then 0 else q.val; rw [if_neg (by decide)]
      refine (shapeCast_apply _ shapeCasts_S4096_S1x4096 (ix2 (0 : Fin 1) q) (ix1 q) ?_).trans (cloudNorm_apply x1 q)
      rw [Shape.rowMajor_val_one, Shape.rowMajor_val_two]
      show q.val = (0 : Fin 1).val * 4096 + q.val
      simp
  · refine (mulf_apply _ _ (ix2 p q)).trans ?_
    exact congrArg₂ (· * ·) rfl (inner_apply x0 x1 p q)

/-- A minimum reduction over one axis, at the extended reals: the fold of `min` from the accumulator's value over that
    axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A square root at an index, at the extended reals. -/
theorem sqrt_apply {s : Shape} {φ : FTy} (a : FVec Ideal s φ) (i : s.Idx) : sqrt a i = Ideal.sqrt (a i) := rfl

/-- The slab's nearest-neighbour distances: the table's row minimum, clamped, under the root. -/
theorem rowOut_apply (x0 : Vec Ideal S1x3x512 .f32) (x1 : Vec Ideal S1x3x4096 .f32) (p : Fin 512) :
    k0_pay6 (F := Ideal) x0 x1 (ix1 p)
      = root ((Finset.univ : Finset (Fin 4096)).fold min start fun q => k0_pay3 (F := Ideal) x0 x1 (ix2 p q)) := by
  unfold k0_pay6
  generalize k0_pay3 (F := Ideal) x0 x1 = T
  refine (sqrt_apply _ (ix1 p)).trans ?_
  unfold root floor0
  refine congrArg Ideal.sqrt ?_
  refine (maximumf_apply _ _ (ix1 p)).trans ?_
  refine congrArg₂ max ?_ rfl
  refine (shapeCast_apply _ shapeCasts_S1x512_S512 (ix1 p) (ix2 (0 : Fin 1) p) ?_).trans ?_
  · rw [Shape.rowMajor_val_one, Shape.rowMajor_val_two]
    show (0 : Fin 1).val * 512 + p.val = p.val
    simp
  refine (transpose_apply _ _ transposes_S512x1_p1_0_S1x512 (ix2 (0 : Fin 1) p) (ix2 p (0 : Fin 1)) fun b => ?_).trans ?_
  · match b with
    | ⟨0, _⟩ => rfl
    | ⟨1, _⟩ => rfl
  refine (shapeCast_apply _ shapeCasts_S512_S512x1 (ix2 p (0 : Fin 1)) (ix1 p) ?_).trans ?_
  · rw [Shape.rowMajor_val_one, Shape.rowMajor_val_two]
    show p.val = p.val * 1 + (0 : Fin 1).val
    simp
  refine (multiReduction_minimumf_single T _ reduces_S512x4096_S512 _ _ (ix1 p)).trans ?_
  unfold start
  refine congrArg (Finset.fold min _ · _) ?_
  funext q
  refine congrArg T (funext fun a => Fin.ext ?_)
  match a with
  | ⟨0, _⟩ => rfl
  | ⟨1, _⟩ => rfl

/-- The running column minimum after the slab: what it was, and the table's column minimum. -/
theorem colAcc_apply (x0 : Vec Ideal S1x3x512 .f32) (x1 : Vec Ideal S1x3x4096 .f32) (acc : Vec Ideal S1x4096 .f32) (q : Fin 4096) :
    k0_pay5 (F := Ideal) x0 x1 acc (ix2 (0 : Fin 1) q)
      = min (acc (ix2 (0 : Fin 1) q)) ((Finset.univ : Finset (Fin 512)).fold min start fun p => k0_pay3 (F := Ideal) x0 x1 (ix2 p q)) := by
  unfold k0_pay5
  rw [shapeCast_self]
  refine (minimumf_apply _ _ _).trans (congrArg (min (acc (ix2 (0 : Fin 1) q))) ?_)
  refine (shapeCast_apply _ shapeCasts_S4096_S1x4096 (ix2 (0 : Fin 1) q) (ix1 q) ?_).trans ?_
  · rw [Shape.rowMajor_val_one, Shape.rowMajor_val_two]
    show q.val = (0 : Fin 1).val * 4096 + q.val
    simp
  · refine (multiReduction_minimumf_single (k0_pay3 (F := Ideal) x0 x1) _ reduces_S512x4096_S4096 _ _ (ix1 q)).trans ?_
    unfold start
    refine congrArg (Finset.fold min _ · _) ?_
    funext p
    refine congrArg (k0_pay3 (F := Ideal) x0 x1) (funext fun a => Fin.ext ?_)
    match a with
    | ⟨0, _⟩ => rfl
    | ⟨1, _⟩ => rfl

/-- The running column minimum's reset value. -/
theorem colReset_apply (q : Fin 4096) : k0_pay4 (F := Ideal) (ix2 (0 : Fin 1) q) = start := by
  unfold k0_pay4
  rw [shapeCast_self]
  rfl

/-- The second output: the running column minimum, clamped, under the root. -/
theorem colOut_apply (acc : Vec Ideal S1x4096 .f32) (q : Fin 4096) :
    k0_pay2 (F := Ideal) acc (ix3 (0 : Fin 1) (0 : Fin 1) q) = root (acc (ix2 (0 : Fin 1) q)) := by
  unfold k0_pay2
  refine (shapeCast_apply _ shapeCasts_S4096_S1x1x4096 (ix3 (0 : Fin 1) (0 : Fin 1) q) (ix1 q) ?_).trans ?_
  · rw [Shape.rowMajor_val_one, Shape.rowMajor_val_three]
    show q.val = ((0 : Fin 1).val * 1 + (0 : Fin 1).val) * 4096 + q.val
    simp
  · show Ideal.sqrt (max (shapeCast S4096 acc shapeCasts_S1x4096_S4096 (ix1 q)) (Ideal.ofBits .f32 0x00000000#32)) = _
    unfold root floor0
    refine congrArg (fun t => Ideal.sqrt (max t _)) ?_
    refine shapeCast_apply acc _ _ _ ?_
    rw [Shape.rowMajor_val_one, Shape.rowMajor_val_two]
    show (0 : Fin 1).val * 4096 + q.val = q.val
    simp

/-- The first output's store: the slab's distances laid as a 1 x 1 x 512 block. -/
theorem rowStore_apply (v : FVec Ideal S512 .f32) (p : Fin 512) :
    k0_pay1 (F := Ideal) v (ix3 (0 : Fin 1) (0 : Fin 1) p) = v (ix1 p) := by
  unfold k0_pay1
  refine shapeCast_apply v _ _ _ ?_
  rw [Shape.rowMajor_val_one, Shape.rowMajor_val_three]
  show p.val = ((0 : Fin 1).val * 1 + (0 : Fin 1).val) * 512 + p.val
  simp

end Cert.Chamfer.Body

end
-- ==== Proof.Invariant.lean ====
/-
  What the kernel's buffers hold after each grid point, as the specification's functions.

  Grid point t works on batch t / 8 and on slab t % 8 of the first cloud.  After it,
    * the first output's block holds, for each point of the slab, the distance to the nearest point of the second cloud
      (the table's row minimum taken before the clamp and the root, which commute with it);
    * the running column minimum holds, for each point of the second cloud, the least squared distance to the first
      cloud's points of slabs 0 … t % 8 (by induction on the point: reset at a batch's first slab, then one slab more a point);
    * at a batch's last slab the second output's block holds the clamp and root of the finished column minima: each
      second-cloud point's distance to the nearest first-cloud point.
-/
import proofs.«179954_j47493748359773_1_alg».proof.Proof.Pieces
import proofs.«179954_j47493748359773_1_alg».proof.Proof.Blocks
import proofs.«179954_j47493748359773_1_alg».proof.Proof.Payload

noncomputable section

namespace Cert.Chamfer.Inv

open Idealize.ShloMosaic Idealize.ShloMosaic.TcCoe Idealize.SL.Sem Idealize.ShloMosaic.ValueIdx
open Cert.KernelIdeal Cert.KernelIdeal.Gen Cert.Chamfer Cert.Chamfer.Blocks

variable (m : (ℓ : Loc nD τ sig) → Buf (Elt Ideal) ℓ)

/-- The two clouds as launched. -/
abbrev X (c : Dev nD) : Cloud := m ((c : Thread nD τ).loc main_arg0)
abbrev Y (c : Dev nD) : Cloud := m ((c : Thread nD τ).loc main_arg1)
/-- The two input blocks at a grid point. -/
abbrev xb (c : Dev nD) (t : Fin cfg0.N) : Vec Ideal S1x3x512 .f32 := iblk m c 0 t
abbrev yb (c : Dev nD) (t : Fin cfg0.N) : Vec Ideal S1x3x4096 .f32 := iblk m c 1 t
/-- The running column minimum after a grid point. -/
abbrev acc (c : Dev nD) (t : Fin cfg0.N) : Vec Ideal S1x4096 .f32 := (outsAt0 m c t.val t.isLt).2.2

/-- The table of squared distances at a grid point is the batch's, restricted to the slab's rows. -/
theorem table_eq (c : Dev nD) (t : Fin cfg0.N) (p : Fin 512) (q : Fin 4096) :
    k0_pay3 (F := Ideal) (xb m c t) (yb m c t) (ix2 p q) = sqDist (X m c) (Y m c) (batch t) (pt t p) q := by
  refine (Body.sqTable_apply (xb m c t) (yb m c t) p q).trans ?_
  have hx : ∀ d : Fin 3, xb m c t (ix3 (0 : Fin 1) d p) = X m c (ix3 (batch t) (pt t p) d) := fun d => blk0_apply m c t d p
  have hy : ∀ d : Fin 3, yb m c t (ix3 (0 : Fin 1) d q) = Y m c (ix3 (batch t) q d) := fun d => blk1_apply m c t d q
  simp only [Body.slabNormSq, Body.cloudNormSq, Body.slabInner, sqDist, normSq, inner, hx, hy]

/-! ## The first output -/

/-- The first output's block after any grid point is the body's row store. -/
theorem out2_eq (c : Dev nD) (t : Fin cfg0.N) :
    (outsAt0 m c t.val t.isLt).1 = k0_pay1 (F := Ideal) (k0_pay6 (F := Ideal) (xb m c t) (yb m c t)) := by
  by_cases h0 : t.val % 8 = 0
  · have h1 : ¬t.val % 8 = 7 := by omega
    rw [outsAt0_A m c t h0 h1]; dsimp only
    exact Pieces.out2_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 8 = 7
    · rw [outsAt0_C m c t h0 h1]; dsimp only
      exact Pieces.out2_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]; dsimp only
      exact Pieces.out2_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- Its entry for the slab's point `p`: that point's distance to the nearest point of the second cloud. -/
theorem out2_value (c : Dev nD) (t : Fin cfg0.N) (p : Fin 512) :
    (outsAt0 m c t.val t.isLt).1 (ix3 (0 : Fin 1) (0 : Fin 1) p) = rowNearest (X m c) (Y m c) (ix2 (batch t) (pt t p)) := by
  rw [out2_eq]
  refine (Body.rowStore_apply (k0_pay6 (F := Ideal) (xb m c t) (yb m c t)) p).trans ?_
  refine (Body.rowOut_apply (xb m c t) (yb m c t) p).trans ?_
  unfold rowNearest
  rw [start_eq, root_fold_min]
  exact congrArg (fun g => (Finset.univ : Finset (Fin 4096)).fold min ⊤ g) (funext fun q => congrArg root (table_eq m c t p q))

/-! ## The running column minimum -/

/-- At a batch's first slab: updated from the reset value. -/
theorem acc_first (c : Dev nD) (t : Fin cfg0.N) (h0 : t.val % 8 = 0) :
    acc m c t = k0_pay5 (F := Ideal) (xb m c t) (yb m c t) (k0_pay4 (F := Ideal)) := by
  have h1 : ¬t.val % 8 = 7 := by omega
  show (outsAt0 m c t.val t.isLt).2.2 = _
  rw [outsAt0_A m c t h0 h1]; dsimp only
  exact Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

/-- At any other slab: updated from what the point before left. -/
theorem acc_next (c : Dev nD) (t : Fin cfg0.N) (h0 : ¬t.val % 8 = 0) :
    acc m c t = k0_pay5 (F := Ideal) (xb m c t) (yb m c t) (acc m c ⟨t.val - 1, Nat.lt_of_le_of_lt (Nat.sub_le _ _) t.isLt⟩) := by
  show (outsAt0 m c t.val t.isLt).2.2 = _
  by_cases h1 : t.val % 8 = 7
  · rw [outsAt0_C m c t h0 h1]; dsimp only
    exact Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
  · rw [outsAt0_B m c t h0 h1]; dsimp only
    exact Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- One update: the minimum before the slab, joined with the slab's own column minimum, is the minimum before the next slab. -/
theorem update_value (c : Dev nD) (t : Fin cfg0.N) (q : Fin 4096) (prev : Vec Ideal S1x4096 .f32)
    (hprev : prev (ix2 (0 : Fin 1) q) = minBelow (fun k => sqDist (X m c) (Y m c) (batch t) k q) (512 * slab t)) :
    k0_pay5 (F := Ideal) (xb m c t) (yb m c t) prev (ix2 (0 : Fin 1) q)
      = minBelow (fun k => sqDist (X m c) (Y m c) (batch t) k q) (512 * (slab t + 1)) := by
  refine (Body.colAcc_apply (xb m c t) (yb m c t) prev q).trans ?_
  rw [hprev, start_eq]
  have e : (fun p : Fin 512 => k0_pay3 (F := Ideal) (xb m c t) (yb m c t) (ix2 p q))
      = fun p : Fin 512 => (fun k => sqDist (X m c) (Y m c) (batch t) k q) (slabPt (slab t) (slab_lt t) p) :=
    funext fun p => table_eq m c t p q
  rw [e]
  exact slabMin_step _ (slab t) (slab_lt t)

/-- After grid point `n` the running minimum holds, for each second-cloud point, the least squared distance to the first
    cloud's points of the slabs so far. -/
theorem acc_value (c : Dev nD) : ∀ (n : ℕ) (hn : n < cfg0.N) (q : Fin 4096),
    acc m c ⟨n, hn⟩ (ix2 (0 : Fin 1) q)
      = minBelow (fun k => sqDist (X m c) (Y m c) (batch ⟨n, hn⟩) k q) (512 * (slab ⟨n, hn⟩ + 1))
  | 0, hn, q => by
    rw [acc_first m c ⟨0, hn⟩ rfl]
    refine update_value m c ⟨0, hn⟩ q _ ?_
    rw [Body.colReset_apply, start_eq, show slab ⟨0, hn⟩ = 0 from rfl, Nat.mul_zero, minBelow_zero]
  | n + 1, hn, q => by
    by_cases h0 : (n + 1) % 8 = 0
    · rw [acc_first m c ⟨n + 1, hn⟩ h0]
      refine update_value m c ⟨n + 1, hn⟩ q _ ?_
      rw [Body.colReset_apply, start_eq, show slab ⟨n + 1, hn⟩ = 0 from h0, Nat.mul_zero, minBelow_zero]
    · rw [acc_next m c ⟨n + 1, hn⟩ h0]
      refine update_value m c ⟨n + 1, hn⟩ q _ ?_
      have ih := acc_value c n (Nat.lt_of_succ_lt hn) q
      have hb : batch ⟨n, Nat.lt_of_succ_lt hn⟩ = batch ⟨n + 1, hn⟩ := Fin.ext (by show n / 8 = (n + 1) / 8; omega)
      have hs : slab ⟨n, Nat.lt_of_succ_lt hn⟩ + 1 = slab ⟨n + 1, hn⟩ := by show n % 8 + 1 = (n + 1) % 8; omega
      rw [hb, hs] at ih
      exact ih

/-! ## The second output -/

/-- At a batch's last slab the second output's block is computed from the running minimum just updated. -/
theorem out3_eq (c : Dev nD) (t : Fin cfg0.N) (h1 : t.val % 8 = 7) :
    (outsAt0 m c t.val t.isLt).2.1 = k0_pay2 (F := Ideal) (acc m c t) := by
  have h0 : ¬t.val % 8 = 0 := by omega
  rw [acc_next m c t h0]
  rw [outsAt0_C m c t h0 h1]; dsimp only
  exact Pieces.out3_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2

/-- Its entry for the second cloud's point `q`: that point's distance to the nearest point of the first cloud. -/
theorem out3_value (c : Dev nD) (t : Fin cfg0.N) (h1 : t.val % 8 = 7) (q : Fin 4096) :
    (outsAt0 m c t.val t.isLt).2.1 (ix3 (0 : Fin 1) (0 : Fin 1) q) = colNearest (X m c) (Y m c) (ix2 (batch t) q) := by
  rw [out3_eq m c t h1]
  refine (Body.colOut_apply (acc m c t) q).trans ?_
  have hv := acc_value m c t.val t.isLt q
  rw [show slab ⟨t.val, t.isLt⟩ = 7 from h1] at hv
  rw [show (⟨t.val, t.isLt⟩ : Fin cfg0.N) = t from rfl] at hv
  rw [hv, show 512 * (7 + 1) = 4096 from rfl, minBelow_all, root_fold_min]
  unfold colNearest
  rw [start_eq]

end Cert.Chamfer.Inv

end
-- ==== Proof.Arrays.lean ====
/-
  The kernel's two result arrays and its result, as the specification's functions.

  The first output's blocks tile its [8, 1, 4096] array, one slab a grid point, so the array ends holding every first-cloud
  point's nearest-neighbour distance; the second output is written back only at a batch's last slab, a whole batch row a
  block, and ends holding every second-cloud point's.  The host then drops the unit axis of each and takes the two means.
-/
import proofs.«179954_j47493748359773_1_alg».proof.Proof.Invariant
import Idealize.ShloMosaic.Lib.Pipeline.Value
import Idealize.ShloMosaic.Lib.StableHlo.Run

noncomputable section

namespace Cert.Chamfer.Arrays

open Idealize.ShloMosaic Idealize.ShloMosaic.TcCoe Idealize.SL.Sem Idealize.ShloMosaic.ValueIdx
open Idealize.ShloMosaic.Pipeline (Dat)
open Cert.KernelIdeal Cert.KernelIdeal.Gen Cert.Chamfer Cert.Chamfer.Blocks Cert.Chamfer.Inv

variable (m : (ℓ : Loc nD τ sig) → Buf (Elt Ideal) ℓ) (ρ : Dev nD → PrngReg)

/-- The first result array: each first-cloud point's nearest-neighbour distance, with a unit middle axis. -/
def rowArr (c : Dev nD) : S8x1x4096.Idx → EReal := fun i => rowNearest (X m c) (Y m c) (ix2 (i 0) (i 2))
/-- The second result array: each second-cloud point's. -/
def colArr (c : Dev nD) : S8x1x4096.Idx → EReal := fun i => colNearest (X m c) (Y m c) (ix2 (i 0) (i 2))

/-- An index of a [1, 1, n] block is its last coordinate. -/
theorem eq_ix3_unit {n : ℕ} (y : (⟨3, ![1, 1, n]⟩ : Shape).Idx) : y = ix3 (0 : Fin 1) (0 : Fin 1) (y 2) := by
  funext a
  match a with
  | ⟨0, _⟩ => exact Fin.ext (Nat.lt_one_iff.mp (y _).isLt)
  | ⟨1, _⟩ => exact Fin.ext (Nat.lt_one_iff.mp (y _).isLt)
  | ⟨2, _⟩ => rfl

/-! ## The first output -/

theorem out2_at (c : Dev nD) (t : Fin cfg0.N) (y : S1x1x512.Idx) :
    (outsAt0 m c t.val t.isLt).1 y = rowNearest (X m c) (Y m c) (ix2 (batch t) (pt t (y 2))) :=
  (congrArg (outsAt0 m c t.val t.isLt).1 (eq_ix3_unit y)).trans (out2_value m c t (y 2))

/-- What grid point `t` writes back is block `t` of the first result array. -/
theorem flushed2_eq (c : Dev nD) (t : Fin cfg0.N) :
    (dats m 0 c).flushed 2 t = ((cfg0.win 2).blk t).view.read (Elt Ideal) (rowArr m c) := by
  show (cfg0.win 2).cut (grid0.coords t) ((dats m 0 c).after 2 t) = _
  rw [after0_2]
  obtain ⟨-, -, -, -, -, -, e0, e1, e2, -⟩ := idx_facts t
  funext y
  rw [View.read_apply]
  refine (out2_at m c t y).trans ?_
  show _ = rowNearest (X m c) (Y m c) (ix2 ((((cfg0.win 2).blk t).view.emb y) 0) ((((cfg0.win 2).blk t).view.emb y) 2))
  have ha : (((cfg0.win 2).blk t).view.emb y) 0 = batch t := Fin.ext (by
    show win0_2.index t (0 : Fin 3) * 1 + 1 * (y 0).val = t.val / 8
    have : (y 0).val < 1 := (y 0).isLt
    omega)
  have hb : (((cfg0.win 2).blk t).view.emb y) 2 = pt t (y 2) := Fin.ext (by
    show win0_2.index t (2 : Fin 3) * 512 + 1 * (y 2).val = 512 * (t.val % 8) + (y 2).val
    omega)
  rw [ha, hb]

theorem mem_blk2 (t : Fin cfg0.N) (i : S8x1x4096.Idx) :
    i ∈ ((cfg0.win 2).blk t).view.set ↔ ∀ a : Fin 3, win0_2.index t a * S1x1x512.size a ≤ (i a).val ∧ (i a).val < win0_2.index t a * S1x1x512.size a + S1x1x512.size a := by
  show i ∈ ((View.whole main_v2_0).slice (win0_2.rect t)).set ↔ _
  rw [View.set_slice_whole, Rect.mem_set_unit]
  exact Iff.rfl

/-- Every index of the first result array is in the block of its batch's slab. -/
theorem cover2 (i : S8x1x4096.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 4096 := (i 2).isLt
  have hN : 8 * (i 0).val + (i 2).val / 512 < cfg0.N := by rw [N64]; omega
  refine ⟨⟨8 * (i 0).val + (i 2).val / 512, hN⟩, flush0_2 _, ?_⟩
  rw [mem_blk2]
  obtain ⟨-, -, -, -, -, -, e0, e1, e2, -⟩ := idx_facts ⟨8 * (i 0).val + (i 2).val / 512, hN⟩
  dsimp only at e0 e1 e2
  intro a
  match a with
  | ⟨0, _⟩ =>
    show win0_2.index _ (0 : Fin 3) * 1 ≤ (i 0).val ∧ (i 0).val < win0_2.index _ (0 : Fin 3) * 1 + 1
    rw [e0]; omega
  | ⟨1, _⟩ =>
    show win0_2.index _ (1 : Fin 3) * 1 ≤ (i 1).val ∧ (i 1).val < win0_2.index _ (1 : Fin 3) * 1 + 1
    rw [e1]; omega
  | ⟨2, _⟩ =>
    show win0_2.index _ (2 : Fin 3) * 512 ≤ (i 2).val ∧ (i 2).val < win0_2.index _ (2 : Fin 3) * 512 + 512
    rw [e2]; omega

/-- The first result array after the run. -/
theorem final2 (c : Dev nD) : (dats m 0 c).arrAt 2 cfg0.N = rowArr m c :=
  (dats m 0 c).arrAt_eq_of_cover 2 (rowArr m c) (fun t _ => flushed2_eq m c t) cover2

/-! ## The second output -/

theorem out3_at (c : Dev nD) (t : Fin cfg0.N) (h1 : t.val % 8 = 7) (y : S1x1x4096.Idx) :
    (outsAt0 m c t.val t.isLt).2.1 y = colNearest (X m c) (Y m c) (ix2 (batch t) (y 2)) :=
  (congrArg (outsAt0 m c t.val t.isLt).2.1 (eq_ix3_unit y)).trans (out3_value m c t h1 (y 2))

/-- What a batch's last grid point writes back is the batch's row of the second result array. -/
theorem flushed3_eq (c : Dev nD) (t : Fin cfg0.N) (h1 : t.val % 8 = 7) :
    (dats m 0 c).flushed 3 t = ((cfg0.win 3).blk t).view.read (Elt Ideal) (colArr m c) := by
  show (cfg0.win 3).cut (grid0.coords t) ((dats m 0 c).after 3 t) = _
  rw [after0_3]
  obtain ⟨-, -, -, -, -, -, -, -, -, e0, e1, e2⟩ := idx_facts t
  funext y
  rw [View.read_apply]
  refine (out3_at m c t h1 y).trans ?_
  show _ = colNearest (X m c) (Y m c) (ix2 ((((cfg0.win 3).blk t).view.emb y) 0) ((((cfg0.win 3).blk t).view.emb y) 2))
  have ha : (((cfg0.win 3).blk t).view.emb y) 0 = batch t := Fin.ext (by
    show win0_3.index t (0 : Fin 3) * 1 + 1 * (y 0).val = t.val / 8
    have : (y 0).val < 1 := (y 0).isLt
    omega)
  have hb : (((cfg0.win 3).blk t).view.emb y) 2 = y 2 := Fin.ext (by
    show win0_3.index t (2 : Fin 3) * 4096 + 1 * (y 2).val = (y 2).val
    omega)
  rw [ha, hb]

theorem mem_blk3 (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v2_1).slice (win0_3.rect t)).set ↔ _
  rw [View.set_slice_whole, Rect.mem_set_unit]
  exact Iff.rfl

/-- Every index of the second result array is in the block its batch's last grid point writes back. -/
theorem cover3 (i : S8x1x4096.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  have hN : 8 * (i 0).val + 7 < cfg0.N := by rw [N64]; omega
  refine ⟨⟨8 * (i 0).val + 7, hN⟩, (flush0_3 _).mpr (by show (8 * (i 0).val + 7) % 8 = 7; omega), ?_⟩
  rw [mem_blk3]
  obtain ⟨-, -, -, -, -, -, -, -, -, e0, e1, e2⟩ := idx_facts ⟨8 * (i 0).val + 7, hN⟩
  dsimp only at e0 e1 e2
  intro a
  match a with
  | ⟨0, _⟩ =>
    show win0_3.index _ (0 : Fin 3) * 1 ≤ (i 0).val ∧ (i 0).val < win0_3.index _ (0 : Fin 3) * 1 + 1
    rw [e0]; omega
  | ⟨1, _⟩ =>
    show win0_3.index _ (1 : Fin 3) * 1 ≤ (i 1).val ∧ (i 1).val < win0_3.index _ (1 : Fin 3) * 1 + 1
    rw [e1]; omega
  | ⟨2, _⟩ =>
    show win0_3.index _ (2 : Fin 3) * 4096 ≤ (i 2).val ∧ (i 2).val < win0_3.index _ (2 : Fin 3) * 4096 + 4096
    rw [e2]; omega

/-- The second result array after the run. -/
theorem final3 (c : Dev nD) : (dats m 0 c).arrAt 3 cfg0.N = colArr m c :=
  (dats m 0 c).arrAt_eq_of_cover 3 (colArr m c) (fun t hf => flushed3_eq m c t ((flush0_3 t).mp hf)) cover3

/-! ## The host's tail -/

/-- Dropping the unit axis of an [8, 1, 4096] array. -/
theorem dropUnit_apply (x : S8x1x4096.Idx → EReal) (h : S8x1x4096.ShapeCasts S8x4096) (j : S8x4096.Idx) :
    shapeCast S8x4096 x h j = x (ix3 (j 0) (0 : Fin 1) (j 1)) :=
  shapeCast_apply x h _ _ (by
    rw [Shape.rowMajor_val_three, Shape.rowMajor_val_two]
    show ((j 0).val * 1 + 0) * 4096 + (j 1).val = (j 0).val * 4096 + (j 1).val
    omega)

theorem dropUnit_rowArr (c : Dev nD) (h : S8x1x4096.ShapeCasts S8x4096) :
    shapeCast S8x4096 (rowArr m c) h = rowNearest (X m c) (Y m c) := by
  funext j
  rw [dropUnit_apply]
  exact congrArg (rowNearest (X m c) (Y m c)) (eq_ix2 j).symm

theorem dropUnit_colArr (c : Dev nD) (h : S8x1x4096.ShapeCasts S8x4096) :
    shapeCast S8x4096 (colArr m c) h = colNearest (X m c) (Y m c) := by
  funext j
  rw [dropUnit_apply]
  exact congrArg (colNearest (X m c) (Y m c)) (eq_ix2 j).symm

/-- The result buffer after the host's tail: the two means of the two nearest-neighbour arrays. -/
theorem tail_eq (c : Dev nD) :
    Pipeline.afterTail₀ cfgs (dats m) 0 (V0 m) [hostOps1] c main_v10
      = meanOfMeans Facts₀.reducesTo_S8x4096_S_d0_1 Facts₀.h_S_ (rowNearest (X m c) (Y m c)) (colNearest (X m c) (Y m c)) := by
  unfold Pipeline.afterTail₀
  show StableHlo.after hostOps1 _ (Proc.devRef .tc main_v10) = _
  after_results
  have e2 : Pipeline.withArrays (cfgs 0).spec c (V0 m c) (fun w => (dats m 0 c).arrAt w (cfgs 0).N) (Proc.devRef .tc main_v2_0) = rowArr m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v2_1) = colArr m c :=
    (Pipeline.withArrays_arr spec0 launch0.win.arr_inj c _ _ 3).trans (final3 m c)
  rw [e2, e3]
  unfold meanOfMeans
  rw [← dropUnit_rowArr m c Facts₀.shapeCasts_S8x1x4096_S8x4096, ← dropUnit_colArr m c Facts₀.shapeCasts_S8x1x4096_S8x4096]
  rfl

/-- The kernel program's run, read: the result buffer at the two means of the two nearest-neighbour arrays of the clouds as
    launched, the clouds unchanged. -/
theorem run : θ_run defs (onTc (τ := τ) (main (F := Ideal))) ⟨m, fun _ => 0, ρ⟩ fun r => ∀ c : Dev nD,
      r.2.mem ((c.tc : Thread nD τ).loc main_v10)
        = meanOfMeans Facts₀.reducesTo_S8x4096_S_d0_1 Facts₀.h_S_ (rowNearest (X m c) (Y m c)) (colNearest (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.Chamfer.Arrays

end
-- ==== Proof.RefValue.lean ====
/-
  The reference program's two nearest-neighbour arrays and its result, as the specification's functions.

  The reference forms the full 8 x 4096 x 4096 table of distances (the clamped squared distance under the root) and takes
  its minima over the last axis and over the middle axis; each is a fold of `min` from the top element over the reduced
  axis's coordinates, the table's entry being `root` of the expanded squared distance.
-/
import proofs.«179954_j47493748359773_1_alg».proof.Proof.Gen.ReferenceIdeal.Read
import proofs.«179954_j47493748359773_1_alg».proof.Proof.Spec
import Idealize.ShloMosaic.PureOps.Reduce
import Idealize.ShloMosaic.PureOps.Ideal.Laws

noncomputable section

namespace Cert.Chamfer.Ref

open Idealize.ShloMosaic Idealize.ShloMosaic.ValueIdx Cert.ReferenceIdeal Cert.ReferenceIdeal.Read Cert.Chamfer
open Cert.ReferenceIdeal.Facts₀

/-- The index at which the first cloud's squared length is read under the table's entry (b, n, m): (b, n, k). -/
private theorem idx_normX (b : Fin 8) (n m : Fin 4096) (k : Fin 3) :
    idx_main_v1 (idx_main_v5 (idx_main_v7 (ix3 b n m))) k = ix3 b n k := by
  funext a; match a with | ⟨0, _⟩ => rfl | ⟨1, _⟩ => rfl | ⟨2, _⟩ => rfl

/-- The index at which the second cloud's squared length is read under the table's entry (b, n, m): (b, m, k). -/
private theorem idx_normY (b : Fin 8) (n m : Fin 4096) (k : Fin 3) :
    idx_main_v3 (idx_main_v6 (idx_main_v8 (ix3 b n m))) k = ix3 b m k := by
  funext a; match a with | ⟨0, _⟩ => rfl | ⟨1, _⟩ => rfl | ⟨2, _⟩ => rfl

/-- The inner product's left factor at (b, n, m) and coordinate k is read at (b, n, k), -/
private theorem idx_innerL (b : Fin 8) (n m : Fin 4096) (k : Fin 3) : lidx_main_v4 (ix3 b n m) k = ix3 b n k := by
  funext a; match a with | ⟨0, _⟩ => rfl | ⟨1, _⟩ => rfl | ⟨2, _⟩ => rfl

/-- and its right factor at (b, m, k). -/
private theorem idx_innerR (b : Fin 8) (n m : Fin 4096) (k : Fin 3) : ridx_main_v4 (ix3 b n m) k = ix3 b m k := by
  funext a; match a with | ⟨0, _⟩ => rfl | ⟨1, _⟩ => rfl | ⟨2, _⟩ => rfl

/-- The distance table's entry at (b, n, m). -/
theorem table_apply (x y : Cloud) (b : Fin 8) (n m : Fin 4096) :
    val_main_v15 (F := Ideal) x y (ix3 b n m) = root (sqDist x y b n m) := by
  -- read every stage at its index, down to the two clouds
  rw [val_main_v15_apply, val_main_v14_apply, val_main_v12_apply, val_main_v9_apply, val_main_v11_apply,
    val_main_v13_apply, val_main_cst_2_apply, val_main_v10_apply, val_main_cst_1_apply, val_main_v4_apply,
    val_main_v7_apply, val_main_v5_apply, val_main_v1_apply, val_main_v8_apply, val_main_v6_apply, val_main_v3_apply,
    val_main_cst_apply, val_main_cst_0_apply]
  simp only [val_main_v0_apply, val_main_v2_apply, idx_normX, idx_normY, idx_innerL, idx_innerR, Ideal.hostUnary_sqrt_def,
    Ideal.maximumf_def, Ideal.subf_def, Ideal.addf_def, Ideal.mulf_def, Ideal.ofBits_def]
  -- the two three-term sums start from zero
  unfold root sqDist normSq inner two floor0
  rw [Ideal.ofBits_zero_f32, zero_add, zero_add]

/-- The table index over (j 0, j 1) with m inserted on the last axis is (j 0, j 1, m). -/
private theorem lift_last (hR : S8x4096x4096.Reduces [2] S8x4096) (j : S8x4096.Idx) (m : Fin 4096) :
    hR.lift j m = ix3 (j 0) (j 1) m := by
  funext c; match c with | ⟨0, _⟩ => rfl | ⟨1, _⟩ => rfl | ⟨2, _⟩ => rfl

/-- The table index over (j 0, j 1) with n inserted on the middle axis is (j 0, n, j 1). -/
private theorem lift_middle (hR : S8x4096x4096.Reduces [1] S8x4096) (j : S8x4096.Idx) (n : Fin 4096) :
    hR.lift j n = ix3 (j 0) n (j 1) := by
  funext c; match c with | ⟨0, _⟩ => rfl | ⟨1, _⟩ => rfl | ⟨2, _⟩ => rfl

/-- The minimum over the last axis: each first-cloud point's nearest second-cloud point. -/
theorem rowMin_eq (x y : Cloud) : val_main_v16 (F := Ideal) x y = rowNearest x y := by
  have hR : S8x4096x4096.Reduces [2] S8x4096 := by decide
  funext j
  unfold val_main_v16
  -- a reduction over one axis is the fold of `min` from the initial value over that axis's coordinates
  rw [Host.reduce_eq_fold_single (FloatOps.minimumf (F := Ideal) (φ := .f32)) _ _ reducesTo_S8x4096x4096_S8x4096_d2 hR h_S_ j]
  have hf : (val_main_v15 (F := Ideal) x y ∘ hR.lift j) = fun m => root (sqDist x y (j 0) (j 1) m) := by
    funext m
    show val_main_v15 (F := Ideal) x y (hR.lift j m) = _
    rw [lift_last hR j m]; exact table_apply x y _ _ _
  rw [hf]; rfl

/-- The minimum over the middle axis: each second-cloud point's nearest first-cloud point. -/
theorem colMin_eq (x y : Cloud) : val_main_v17 (F := Ideal) x y = colNearest x y := by
  have hR : S8x4096x4096.Reduces [1] S8x4096 := by decide
  funext j
  unfold val_main_v17
  rw [Host.reduce_eq_fold_single (FloatOps.minimumf (F := Ideal) (φ := .f32)) _ _ reducesTo_S8x4096x4096_S8x4096_d1 hR h_S_ j]
  have hf : (val_main_v15 (F := Ideal) x y ∘ hR.lift j) = fun n => root (sqDist x y (j 0) n (j 1)) := by
    funext n
    show val_main_v15 (F := Ideal) x y (hR.lift j n) = _
    rw [lift_middle hR j n]; exact table_apply x y _ _ _
  rw [hf]; rfl

/-- The reference's result: the two means over the two nearest-neighbour arrays. -/
theorem result_eq (x y : Cloud) :
    val_main_v23 (F := Ideal) x y = meanOfMeans reducesTo_S8x4096_S_d0_1 h_S_ (rowNearest x y) (colNearest x y) := by
  unfold val_main_v23 val_main_v22 val_main_v21 val_main_v20 val_main_v19 val_main_v18 meanOfMeans
  rw [rowMin_eq, colMin_eq]
  rfl

end Cert.Chamfer.Ref

end
-- ==== Proof.lean ====
/-
  The certificate of the nearest-neighbour (chamfer) distance kernel against its reference: the claims of Defs.lean.

  Both programs compute, from two batches of eight clouds of 4096 points in three coordinates, the mean over the first
  cloud's points of the distance to the nearest point of the second cloud, plus the mean over the second cloud's points of
  the distance to the nearest point of the first, divided by 4096; the squared distance is in expanded form,
  |x|^2 + |y|^2 - 2 <x, y>, clamped below at zero before the square root (Spec.lean).

  The reference takes the root of every entry of the 8 x 4096 x 4096 table and then the two minima (RefValue.lean).
  The kernel walks the first cloud in eight slabs of 512 points a batch; at each slab it forms the 512 x 4096 table of
  squared distances, stores the slab's row minima through the clamp and the root, and joins the table's column minima into
  a running minimum it carries from slab to slab, which goes through the clamp and the root after the batch's last slab
  (Payload.lean, Pieces.lean, Invariant.lean, Arrays.lean).  The two agree over the extended reals because the clamp and
  the root are monotone and fix the top element, so they commute with a minimum, and because a minimum over 4096 points is
  the minimum of the eight slabs' minima; sums and products are the same terms on both sides, so finiteness of the inputs
  is not used.  The ideal pass rewrote nothing, so `preserves` is trivial; the two kernel frames are the generated ones and
  the reference's frame is its generated run with the result dropped.
-/
import proofs.«179954_j47493748359773_1_alg».proof.Defs
import proofs.«179954_j47493748359773_1_alg».proof.Proof.Gen.Kernel
import proofs.«179954_j47493748359773_1_alg».proof.Proof.Gen.Kernel.Skeleton
import proofs.«179954_j47493748359773_1_alg».proof.Proof.Gen.Kernel.Launch
import proofs.«179954_j47493748359773_1_alg».proof.Proof.Gen.Kernel.Points
import proofs.«179954_j47493748359773_1_alg».proof.Proof.Gen.Kernel.Frame
import proofs.«179954_j47493748359773_1_alg».proof.Proof.Gen.KernelIdeal
import proofs.«179954_j47493748359773_1_alg».proof.Proof.Gen.KernelIdeal.Skeleton
import proofs.«179954_j47493748359773_1_alg».proof.Proof.Gen.KernelIdeal.Launch
import proofs.«179954_j47493748359773_1_alg».proof.Proof.Gen.KernelIdeal.Points
import proofs.«179954_j47493748359773_1_alg».proof.Proof.Gen.KernelIdeal.Frame
import proofs.«179954_j47493748359773_1_alg».proof.Proof.Gen.ReferenceIdeal
import proofs.«179954_j47493748359773_1_alg».proof.Proof.Gen.Pre_finite_inputs
import proofs.«179954_j47493748359773_1_alg».proof.Proof.Gen.ReferenceIdeal.Run
import proofs.«179954_j47493748359773_1_alg».proof.Proof.Gen.ReferenceIdeal.Read
import proofs.«179954_j47493748359773_1_alg».proof.Proof.Arrays
import proofs.«179954_j47493748359773_1_alg».proof.Proof.RefValue
import Idealize.ShloMosaic.Adequacy
import Idealize.ShloMosaic.Init

noncomputable section

namespace Cert.Proof

open Idealize.ShloMosaic Idealize.SL.Sem Cert.Chamfer

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the two means of the two nearest-neighbour arrays of the clouds they were launched with; the clouds
    agree, so the results do. -/
theorem algebraic : Cert.algebraic_KernelIdeal_ReferenceIdeal := by
  intro m ρ m' ρ' _ hagree
  refine ⟨fun c => meanOfMeans Cert.KernelIdeal.Facts₀.reducesTo_S8x4096_S_d0_1 Cert.KernelIdeal.Facts₀.h_S_
      (rowNearest (Inv.X m c) (Inv.Y m c)) (colNearest (Inv.X m c) (Inv.Y m c)), Arrays.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
